-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S1 : Shape := ⟨1, ![1]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S1 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S1 : Shape := ⟨1, ![1]⟩
abbrev S16x4096 : Shape := ⟨2, ![16, 4096]⟩
abbrev S4096x16 : Shape := ⟨2, ![4096, 16]⟩
abbrev S8192x4096 : Shape := ⟨2, ![8192, 4096]⟩
abbrev S_ : Shape := ⟨0, ![]⟩
abbrev S2048x512 : Shape := ⟨2, ![2048, 512]⟩
abbrev S512x512 : Shape := ⟨2, ![512, 512]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S1, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S4x2048x4096, .f32⟩
  | .local _ .vmem, ⟨0, _⟩ => ⟨S2048x512, .f32⟩
  | .local _ .vmem, ⟨1, _⟩ => ⟨S2048x512, .f32⟩
  | .local _ .vmem, ⟨2, _⟩ => ⟨S512x512, .i32⟩
  | .local _ .vmem, ⟨3, _⟩ => ⟨S512x512, .i32⟩
  | .local _ .vmem, ⟨4, _⟩ => ⟨S1, .f32⟩
  | .local _ .vmem, ⟨5, _⟩ => ⟨S512x512, .f32⟩
  | .local _ .vmem, ⟨6, _⟩ => ⟨S512x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bcast_S_S4096x4096 : S_.BroadcastsInDim S4096x4096 (![] : Fin 0 → Fin S4096x4096.rank)
  shapeCasts_S8192x4096_S4x2048x4096 : S8192x4096.ShapeCasts S4x2048x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1_S1_0 : ∀ a, (![0] : Fin 1 → Nat) a + S1.size a ≤ S1.size a
  h_S1 : 0 < S1.numel
  inpos_S1_p0 : ∀ a, (![0] : Fin 1 → Nat) a < S1.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  dot_S4096x16_S16x4096_S4096x4096_1_0_0_1_n_n_wf : DotDims.WF S4096x16 S16x4096 S4096x4096 [1] [0] [0] [1] [] []
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .i32 = 32 ∨ (Rect.block (s := S4096x4096) S512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x4096.size a
  hwx0_4 : ∀ i : grid0.Coords, EltTy.bits .f32 = 32 ∨ (Rect.block (s := S8192x4096) S2048x512.size (cc0_transform_4 i) (hinb0_4 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S1 : Shape := ⟨1, ![1]⟩
abbrev S16x4096 : Shape := ⟨2, ![16, 4096]⟩
abbrev S4096x16 : Shape := ⟨2, ![4096, 16]⟩
abbrev S1x1 : Shape := ⟨2, ![1, 1]⟩
abbrev S4x2048x16 : Shape := ⟨3, ![4, 2048, 16]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S1, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S1x1, .f32⟩
  | .hbm, ⟨7, _⟩ => ⟨S4096x4096, .f32⟩
  | .hbm, ⟨8, _⟩ => ⟨S4096x4096, .f32⟩
  | .hbm, ⟨9, _⟩ => ⟨S4x2048x4096, .f32⟩
  | .hbm, ⟨10, _⟩ => ⟨S4x2048x16, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one grid point of the fused kernel leaves behind, as values.  The grid is (row tile, column tile, contraction
  block); the f32 accumulator tile is carried across the eight contraction blocks of one (row tile, column tile).
  Each point adds, to the accumulator it finds, the product of its activation block with the effective-weight block
  (dequantized integer weight plus adapter delta); the first block of a sweep starts from the zero tile and the
  last one copies the accumulator to the output block.
-/
import proofs.«126805_j48576080118365_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- At a point that neither starts nor ends a contraction sweep the body leaves in the accumulator the one
    covering store's payload: the accumulator it found plus this block's product. -/
theorem scratch_B (c : Dev nD) (i : grid0.Coords) (a3 : Memref sig .tc .vmem S2048x512 .f32) (h3 : a3.IsWhole)
    (a4 : Memref sig .tc .vmem S512x512 .i32) (h4 : a4.IsWhole) (a5 : Memref sig .tc .vmem S1 .f32) (h5 : a5.IsWhole)
    (a6 : Memref sig .tc .vmem S512x512 .f32) (h6 : a6.IsWhole) (a7 : Memref sig .tc .vmem S2048x512 .f32) (h7 : a7.IsWhole)
    (a8 : Memref sig .tc .vmem S2048x512 .f32) (h8 : a8.IsWhole) (hc0 : ¬cond0_0 i) (hc1 : ¬cond0_1 i)
    (x0 : Vec F S2048x512 .f32) (x1 : Vec F S512x512 .i32) (x2 : Vec F S1 .f32) (x3 : Vec F S512x512 .f32) (xs0 : Vec F S2048x512 .f32) :
    sout0_B_0 c i a3 h3 a4 h4 a5 h5 a6 h6 a7 h7 a8 h8 hc0 hc1 x0 x1 x2 x3 xs0 = k0_pay2 x2 x1 x3 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h6.read_unread, h7.read_unread, h8.read_unread,
    View.ld_unit_zero (S := S2048x512) hz, View.ld_unit_zero (S := S512x512) hz, View.ld_unit_zero (S := S1) hz1]

/-- At the last point of a sweep the accumulator is updated the same way, -/
theorem scratch_C (c : Dev nD) (i : grid0.Coords) (a3 : Memref sig .tc .vmem S2048x512 .f32) (h3 : a3.IsWhole)
    (a4 : Memref sig .tc .vmem S512x512 .i32) (h4 : a4.IsWhole) (a5 : Memref sig .tc .vmem S1 .f32) (h5 : a5.IsWhole)
    (a6 : Memref sig .tc .vmem S512x512 .f32) (h6 : a6.IsWhole) (a7 : Memref sig .tc .vmem S2048x512 .f32) (h7 : a7.IsWhole)
    (a8 : Memref sig .tc .vmem S2048x512 .f32) (h8 : a8.IsWhole) (hc0 : ¬cond0_0 i) (hc1 : cond0_1 i)
    (x0 : Vec F S2048x512 .f32) (x1 : Vec F S512x512 .i32) (x2 : Vec F S1 .f32) (x3 : Vec F S512x512 .f32) (xs0 : Vec F S2048x512 .f32) :
    sout0_C_0 c i a3 h3 a4 h4 a5 h5 a6 h6 a7 h7 a8 h8 hc0 hc1 x0 x1 x2 x3 xs0 = k0_pay2 x2 x1 x3 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h7.read_unread, h8.read_unread,
    View.ld_unit_zero (S := S2048x512) hz, View.ld_unit_zero (S := S512x512) hz, View.ld_unit_zero (S := S1) hz1]

/-- and the output block is the accumulator read back after that update. -/
theorem out_C (c : Dev nD) (i : grid0.Coords) (a3 : Memref sig .tc .vmem S2048x512 .f32) (h3 : a3.IsWhole)
    (a4 : Memref sig .tc .vmem S512x512 .i32) (h4 : a4.IsWhole) (a5 : Memref sig .tc .vmem S1 .f32) (h5 : a5.IsWhole)
    (a6 : Memref sig .tc .vmem S512x512 .f32) (h6 : a6.IsWhole) (a7 : Memref sig .tc .vmem S2048x512 .f32) (h7 : a7.IsWhole)
    (a8 : Memref sig .tc .vmem S2048x512 .f32) (h8 : a8.IsWhole) (hc0 : ¬cond0_0 i) (hc1 : cond0_1 i)
    (x0 : Vec F S2048x512 .f32) (x1 : Vec F S512x512 .i32) (x2 : Vec F S1 .f32) (x3 : Vec F S512x512 .f32) (xs0 : Vec F S2048x512 .f32) :
    out0_C_4 c i a3 h3 a4 h4 a5 h5 a6 h6 a7 h7 a8 h8 hc0 hc1 x0 x1 x2 x3 xs0 = k0_pay2 x2 x1 x3 x0 xs0 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S2048x512) _ hz]
  simp only [View.readAt_eq_ld, h3.read_unread, h4.read_unread, h5.read_unread, h6.read_unread, h7.read_unread, h8.read_unread,
    View.ld_unit_zero (S := S2048x512) hz, View.ld_unit_zero (S := S512x512) hz, View.ld_unit_zero (S := S1) hz1]

/-- At the first point of a sweep the accumulator is first reset to the zero block, read back, and updated: the
    update lands on the zero block whatever the accumulator held before. -/
theorem scratch_A (c : Dev nD) (i : grid0.Coords) (a3 : Memref sig .tc .vmem S2048x512 .f32) (h3 : a3.IsWhole)
    (a4 : Memref sig .tc .vmem S512x512 .i32) (h4 : a4.IsWhole) (a5 : Memref sig .tc .vmem S1 .f32) (h5 : a5.IsWhole)
    (a6 : Memref sig .tc .vmem S512x512 .f32) (h6 : a6.IsWhole) (a7 : Memref sig .tc .vmem S2048x512 .f32) (h7 : a7.IsWhole)
    (a8 : Memref sig .tc .vmem S2048x512 .f32) (h8 : a8.IsWhole) (hc0 : cond0_0 i) (hc1 : ¬cond0_1 i)
    (x0 : Vec F S2048x512 .f32) (x1 : Vec F S512x512 .i32) (x2 : Vec F S1 .f32) (x3 : Vec F S512x512 .f32) :
    sout0_A_0 c i a3 h3 a4 h4 a5 h5 a6 h6 a7 h7 a8 h8 hc0 hc1 x0 x1 x2 x3 = k0_pay2 x2 x1 x3 x0 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x512) hz, View.readCov_unit_zero (S := S2048x512) _ hz]
  simp only [View.readAt_eq_ld, h3.read_unread, h4.read_unread, h5.read_unread, h6.read_unread, h7.read_unread, h8.read_unread,
    View.ld_unit_zero (S := S2048x512) hz, View.ld_unit_zero (S := S512x512) hz, View.ld_unit_zero (S := S1) hz1]

end Cert.KernelIdeal.Pieces
end
-- ==== Proof.Payload.lean ====
/-
  The accumulator update of the fused kernel read at one entry, over the extended reals: entry (p, q) of the
  2048×512 tile gains  ∑ⱼ x(p,j) · (ŵ(q,j) · s + δ(q,j))  — row p of the activation block against row q of the
  effective-weight block (integer weight read as a real, times the scale, plus the adapter delta).  Rounding to
  bf16 before the product is the identity on extended reals.
-/
import proofs.«126805_j48576080118365_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The product's operand indices, axis by axis: the left operand is read at (output row, contraction index), the right
    at (output column, contraction index) — both operands are contracted along their second axis. -/
theorem lhs_axis0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
theorem lhs_axis1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
theorem rhs_axis0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
theorem rhs_axis1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The tile product read at an entry: row `p` of the left tile against row `q` of the right tile. -/
theorem tile_product (l : FVec Ideal S2048x512 .bf16) (r : FVec Ideal S512x512 .bf16) (p : Fin 2048) (q : Fin 512) :
    matmul dot_S2048x512_S512x512_S2048x512_1_1_0_0_n_n none l r (constant S2048x512 .f32 0x00000000#32) (ix2 p q) = ∑ j : Fin 512, l (ix2 p j) * r (ix2 q j) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 p q) ((contrEquiv1 dot_S2048x512_S512x512_S2048x512_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S2048x512_S512x512_S2048x512_1_1_0_0_n_n.rhsIdx (ix2 p q) ((contrEquiv1 dot_S2048x512_S512x512_S2048x512_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- The accumulator update at entry `(p, q)`. -/
theorem update_apply (v3 : Vec Ideal S1 .f32) (v5 : Vec Ideal S512x512 .i32) (v9 : Vec Ideal S512x512 .f32)
    (v13 v16 : Vec Ideal S2048x512 .f32) (p : Fin 2048) (q : Fin 512) :
    k0_pay2 v3 v5 v9 v13 v16 (ix2 p q)
      = v16 (ix2 p q) + ∑ j : Fin 512, v13 (ix2 p j) * ((((v5 (ix2 q j)).toInt : ℝ) : EReal) * v3 (ix1 0) + v9 (ix2 q j)) := by
  unfold k0_pay2
  rw [shapeCast_self, addf_apply, tile_product]
  refine congrArg _ (Finset.sum_congr rfl fun j _ => ?_)
  rw [truncf_apply, truncf_apply, shapeCast_self, shapeCast_self, addf_apply, mulf_apply]
  have e : extractAt ![0] v3 inpos_S1_p0 = v3 (ix1 0) :=
    congrArg v3 (funext fun a => Fin.ext (by match a with | ⟨0, _⟩ => rfl))
  rw [broadcast_apply, e]
  rfl

/-- The tile a sweep starts from is zero everywhere. -/
theorem zero_tile_apply (i : S2048x512.Idx) : k0_pay1 (F := Ideal) i = 0 := by
  unfold k0_pay1
  rw [shapeCast_self, broadcast_apply]
  exact Ideal.ofBits_zero_f32

end Cert.KernelIdeal.Payload
end
-- ==== Proof.Spec.lean ====
/-
  The two arrangements of the quantized low-rank-adapted linear map, as functions of the argument arrays over the
  extended reals.  With `ŵ o k` the integer weight read as a real, `s` the one dequantization scale and `c` the
  adapter's scaling constant:

    split  (b, r, o) = ∑ₖ x(b,r,k) · (ŵ(o,k) · s)  +  (∑ᵨ (∑ₖ x(b,r,k) · A(ρ,k)) · B(o,ρ)) · c
    fused  (b, r, o) = the eight 512-wide partial sums of  x(b,r,k) · (ŵ(o,k) · s + c · ∑ᵨ B(o,ρ) · A(ρ,k)),
                       added to 0 in order of the contraction block.

  `split` applies the base weight and the rank-16 adapter separately; `fused` folds the adapter into one
  effective weight and contracts once, block by block.
-/
import Idealize.ShloMosaic.PureOps.Ideal
import Idealize.ShloMosaic.Lib.ValueIdx

noncomputable section

namespace Cert.QLora

open Idealize.ShloMosaic Idealize.ShloMosaic.ValueIdx

/-- The argument arrays' shapes: activations, integer weight, scale, adapter factors. -/
abbrev SX : Shape := ⟨3, ![4, 2048, 4096]⟩
abbrev SW : Shape := ⟨2, ![4096, 4096]⟩
abbrev SS : Shape := ⟨1, ![1]⟩
abbrev SA : Shape := ⟨2, ![16, 4096]⟩
abbrev SB : Shape := ⟨2, ![4096, 16]⟩

/-- Column `512·kb + j` of the contraction axis: entry `j` of its `kb`-th block of 512 (read modulo the axis so
    that it is total in `kb`; for `kb < 8` nothing wraps). -/
def col (kb : ℕ) (j : Fin 512) : Fin 4096 := ⟨(512 * kb + j.val) % 4096, Nat.mod_lt _ (by decide)⟩

/-- Partial sums over the contraction axis taken block by block: start from `0`, add block 0, then block 1, … -/
def acc (f : Fin 4096 → EReal) : ℕ → EReal
  | 0 => 0 + ∑ j : Fin 512, f (col 0 j)
  | n + 1 => acc f n + ∑ j : Fin 512, f (col (n + 1) j)

/-- One term of the fused contraction at output `(b, r, o)` and contraction index `k`: the activation times the
    effective weight `ŵ(o,k) · s + c · (B A)(o,k)`. -/
def term (x : SX.Idx → EReal) (w : SW.Idx → BitVec 32) (s : SS.Idx → EReal) (A : SA.Idx → EReal) (B : SB.Idx → EReal)
    (c : EReal) (b : Fin 4) (r : Fin 2048) (o : Fin 4096) (k : Fin 4096) : EReal :=
  x (ix3 b r k) * ((((w (ix2 o k)).toInt : ℝ) : EReal) * s (ix1 0) + c * ∑ ρ : Fin 16, B (ix2 o ρ) * A (ix2 ρ k))

/-- The fused arrangement: all eight blocks accumulated. -/
def fused (x : SX.Idx → EReal) (w : SW.Idx → BitVec 32) (s : SS.Idx → EReal) (A : SA.Idx → EReal) (B : SB.Idx → EReal)
    (c : EReal) : SX.Idx → EReal :=
  fun i => acc (term x w s A B c (i 0) (i 1) (i 2)) 7

/-- The split arrangement: base product plus scaled low-rank product. -/
def split (x : SX.Idx → EReal) (w : SW.Idx → BitVec 32) (s : SS.Idx → EReal) (A : SA.Idx → EReal) (B : SB.Idx → EReal)
    (c : EReal) : SX.Idx → EReal :=
  fun i => (∑ k : Fin 4096, x (ix3 (i 0) (i 1) k) * ((((w (ix2 (i 2) k)).toInt : ℝ) : EReal) * s (ix1 0)))
    + (∑ ρ : Fin 16, (∑ k : Fin 4096, x (ix3 (i 0) (i 1) k) * A (ix2 ρ k)) * B (ix2 (i 2) ρ)) * c

end Cert.QLora

end
-- ==== Proof.Sweep.lean ====
/-
  The fused kernel's accumulator, point by point.  The grid is (row tile, column tile, contraction block), the
  last axis fastest: point `n` has row tile `n / 64`, column tile `n / 8 % 8` and contraction block `n % 8`.
  Over one sweep of the eight contraction blocks the accumulator tile is reset, then gains one block's product per
  point; so after point `n` its entry (p, q) is the ordered partial sum, over blocks 0 … n % 8, of the terms
      X(row, k) · (Ŵ(o, k) · s + Δ(o, k)),     row = 2048·(n/64) + p,  o = 512·(n/8 % 8) + q,
  where X is the activations flattened to rows, Ŵ the integer weight read as a real, s the scale and Δ the adapter
  delta.  The proof is an induction on the point over the three cases of the body (first, middle, last of a sweep).
-/
import proofs.«126805_j48576080118365_1_alg».proof.Proof.Pieces
import proofs.«126805_j48576080118365_1_alg».proof.Proof.Payload
import proofs.«126805_j48576080118365_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable {F : FTy → Type} [FloatOps F]
variable (m : (ℓ : Loc nD τ sig) → Buf (Elt F) ℓ)

/-- The four input blocks a grid point is called with, at their literal tile types. -/
abbrev xblk (c : Dev nD) (t : Fin cfg0.N) : Vec F S2048x512 .f32 := iblk m c 0 t
abbrev wblk (c : Dev nD) (t : Fin cfg0.N) : Vec F S512x512 .i32 := iblk m c 1 t
abbrev sblk (c : Dev nD) (t : Fin cfg0.N) : Vec F S1 .f32 := iblk m c 2 t
abbrev dblk (c : Dev nD) (t : Fin cfg0.N) : Vec F S512x512 .f32 := iblk m c 3 t

/-- The accumulator after the first point of a sweep: the update applied to the zero tile. -/
theorem acc_first (c : Dev nD) (t : Fin cfg0.N) (h0 : t.val % 8 = 0) :
    (outsAt0 m c t.val t.isLt).2 = k0_pay2 (sblk m c t) (wblk m c t) (dblk m c t) (xblk m c t) (k0_pay1 (F := F)) := by
  have h1 : ¬t.val % 8 = 7 := by omega
  rw [outsAt0_A m c t h0 h1]
  dsimp only
  exact Pieces.scratch_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- The accumulator after any later point of a sweep: the update applied to what the point before left. -/
theorem acc_next (c : Dev nD) (t : Fin cfg0.N) (h0 : ¬t.val % 8 = 0) :
    (outsAt0 m c t.val t.isLt).2 = k0_pay2 (sblk m c t) (wblk m c t) (dblk m c t) (xblk m c t)
      (outsAt0 m c (t.val - 1) (Nat.lt_of_le_of_lt (Nat.sub_le _ _) t.isLt)).2 := by
  by_cases h1 : t.val % 8 = 7
  · rw [outsAt0_C m c t h0 h1]
    dsimp only
    exact Pieces.scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last point of a sweep the output block is the accumulator. -/
theorem out_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (Pieces.out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Pieces.scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-! ## Where a point's blocks sit in their arrays -/

/-- The arrays the region reads, at their literal types: the activations flattened to rows, the integer weight, the
    scale, the adapter delta. -/
abbrev Xarr (c : Dev nD) : Vec F S8192x4096 .f32 := V m c main_call0_v0
abbrev Warr (c : Dev nD) : Vec F S4096x4096 .i32 := V m c main_arg1
abbrev Sarr (c : Dev nD) : Vec F S1 .f32 := V m c main_arg2
abbrev Darr (c : Dev nD) : Vec F S4096x4096 .f32 := V m c main_call0_v3

/-- Point `n` of the grid (row tile `n / 64`, column tile `n / 8 % 8`, contraction block `n % 8`) works on rows
    `2048·(n/64) + p` and output columns `512·(n/8 % 8) + q` (both read modulo the axis so as to be total in `n`). -/
def rowOf (n : ℕ) (p : Fin 2048) : Fin 8192 := ⟨(2048 * (n / 64) + p.val) % 8192, Nat.mod_lt _ (by decide)⟩
def outOf (n : ℕ) (q : Fin 512) : Fin 4096 := ⟨(512 * (n / 8 % 8) + q.val) % 4096, Nat.mod_lt _ (by decide)⟩

/-- The printed index maps in closed form, decided over the grid. -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 1) = 0
    ∧ win0_3.index t (0 : Fin 2) = t.val / 8 % 8 ∧ win0_3.index t (1 : Fin 2) = t.val % 8
    ∧ win0_4.index t (0 : Fin 2) = t.val / 64 ∧ win0_4.index t (1 : Fin 2) = t.val / 8 % 8 :=
  (by decide +kernel : ∀ t : Fin grid0.N, _)

theorem xblk_apply (c : Dev nD) (t : Fin cfg0.N) (p : Fin 2048) (j : Fin 512) :
    xblk m c t (ix2 p j) = Xarr m c (ix2 (rowOf t.val p) (QLora.col (t.val % 8) j)) := by
  obtain ⟨e0, e1, -⟩ := idx_facts t
  have hN : t.val < 256 := lt_of_lt_of_eq t.isLt (show cfg0.N = 256 from N_0)
  unfold xblk iblk
  rw [View.read_apply]
  show V m c main_call0_v0 _ = V m c main_call0_v0 _
  congr 1
  funext a
  apply Fin.ext
  match a with
  | ⟨0, _⟩ => show win0_0.index t (0 : Fin 2) * 2048 + 1 * p.val = (2048 * (t.val / 64) + p.val) % 8192; rw [e0]; omega
  | ⟨1, _⟩ => show win0_0.index t (1 : Fin 2) * 512 + 1 * j.val = (512 * (t.val % 8) + j.val) % 4096; rw [e1]; omega

theorem wblk_apply (c : Dev nD) (t : Fin cfg0.N) (q : Fin 512) (j : Fin 512) :
    wblk m c t (ix2 q j) = Warr m c (ix2 (outOf t.val q) (QLora.col (t.val % 8) j)) := by
  obtain ⟨-, -, e0, e1, -⟩ := idx_facts t
  have hN : t.val < 256 := lt_of_lt_of_eq t.isLt (show cfg0.N = 256 from N_0)
  unfold wblk iblk
  rw [View.read_apply]
  show V m c main_arg1 _ = V m c main_arg1 _
  congr 1
  funext a
  apply Fin.ext
  match a with
  | ⟨0, _⟩ => show win0_1.index t (0 : Fin 2) * 512 + 1 * q.val = (512 * (t.val / 8 % 8) + q.val) % 4096; rw [e0]; omega
  | ⟨1, _⟩ => show win0_1.index t (1 : Fin 2) * 512 + 1 * j.val = (512 * (t.val % 8) + j.val) % 4096; rw [e1]; omega

theorem dblk_apply (c : Dev nD) (t : Fin cfg0.N) (q : Fin 512) (j : Fin 512) :
    dblk m c t (ix2 q j) = Darr m c (ix2 (outOf t.val q) (QLora.col (t.val % 8) j)) := by
  obtain ⟨-, -, -, -, -, e0, e1, -⟩ := idx_facts t
  have hN : t.val < 256 := lt_of_lt_of_eq t.isLt (show cfg0.N = 256 from N_0)
  unfold dblk iblk
  rw [View.read_apply]
  show V m c main_call0_v3 _ = V m c main_call0_v3 _
  congr 1
  funext a
  apply Fin.ext
  match a with
  | ⟨0, _⟩ => show win0_3.index t (0 : Fin 2) * 512 + 1 * q.val = (512 * (t.val / 8 % 8) + q.val) % 4096; rw [e0]; omega
  | ⟨1, _⟩ => show win0_3.index t (1 : Fin 2) * 512 + 1 * j.val = (512 * (t.val % 8) + j.val) % 4096; rw [e1]; omega

theorem sblk_apply (c : Dev nD) (t : Fin cfg0.N) :
    sblk m c t (ix1 0) = Sarr m c (ix1 0) := by
  obtain ⟨-, -, -, -, e0, -⟩ := idx_facts t
  unfold sblk iblk
  rw [View.read_apply]
  show V m c main_arg2 _ = V m c main_arg2 _
  congr 1
  funext a
  apply Fin.ext
  match a with
  | ⟨0, _⟩ => show win0_2.index t (0 : Fin 1) * 1 + 1 * 0 = 0; rw [e0]

/-! ## The accumulator in closed form, over the extended reals -/

/-- One term of the fused contraction at row `row` and output column `o` of the flattened problem: the activation
    times the effective weight (integer weight read as a real, times the scale, plus the adapter delta). -/
def kterm (X : Vec Ideal S8192x4096 .f32) (W : Vec Ideal S4096x4096 .i32) (S : Vec Ideal S1 .f32)
    (D : Vec Ideal S4096x4096 .f32) (row : Fin 8192) (o : Fin 4096) (k : Fin 4096) : EReal :=
  X (ix2 row k) * ((((W (ix2 o k)).toInt : ℝ) : EReal) * S (ix1 0) + D (ix2 o k))

variable (mI : (ℓ : Loc nD τ sig) → Buf (Elt Ideal) ℓ)

/-- What a point adds at entry `(p, q)` of the tile is its contraction block's share of the terms. -/
theorem block_sum (c : Dev nD) (t : Fin cfg0.N) (p : Fin 2048) (q : Fin 512) :
    ∑ j : Fin 512, xblk mI c t (ix2 p j) * ((((wblk mI c t (ix2 q j)).toInt : ℝ) : EReal) * sblk mI c t (ix1 0) + dblk mI c t (ix2 q j))
      = ∑ j : Fin 512, kterm (Xarr mI c) (Warr mI c) (Sarr mI c) (Darr mI c) (rowOf t.val p) (outOf t.val q) (QLora.col (t.val % 8) j) := by
  refine Finset.sum_congr rfl fun j _ => ?_
  rw [xblk_apply, wblk_apply, sblk_apply, dblk_apply]
  rfl

/-- After point `n` the accumulator holds, at every entry, the partial sums of that entry's terms over the contraction
    blocks `0 … n % 8`, added in order onto zero. By induction on the point: the first point of a sweep starts from the
    zero tile, every later one adds its block to what the point before left, and within a sweep the row tile and
    column tile do not move. -/
theorem acc_eq (c : Dev nD) : ∀ (n : ℕ) (hn : n < cfg0.N) (p : Fin 2048) (q : Fin 512),
    (outsAt0 mI c n hn).2 (ix2 p q)
      = QLora.acc (kterm (Xarr mI c) (Warr mI c) (Sarr mI c) (Darr mI c) (rowOf n p) (outOf n q)) (n % 8)
  | 0, hn, p, q => by
    rw [acc_first mI c ⟨0, hn⟩ rfl, Payload.update_apply, Payload.zero_tile_apply, block_sum]
    rfl
  | n + 1, hn, p, q => by
    by_cases h0 : (n + 1) % 8 = 0
    · rw [acc_first mI c ⟨n + 1, hn⟩ h0, Payload.update_apply, Payload.zero_tile_apply, block_sum]
      dsimp only
      rw [h0]
      rfl
    · rw [acc_next mI c ⟨n + 1, hn⟩ h0, Payload.update_apply, block_sum]
      dsimp only
      show (outsAt0 mI c n (Nat.lt_of_succ_lt hn)).2 (ix2 p q) + _ = _
      rw [acc_eq c n (Nat.lt_of_succ_lt hn) p q]
      have e8 : (n + 1) % 8 = n % 8 + 1 := by omega
      have ed : (n + 1) / 64 = n / 64 := by omega
      have eo : (n + 1) / 8 = n / 8 := by omega
      have er : rowOf (n + 1) p = rowOf n p :=
        Fin.ext (by show (2048 * ((n + 1) / 64) + p.val) % 8192 = (2048 * (n / 64) + p.val) % 8192; rw [ed])
      have ec : outOf (n + 1) q = outOf n q :=
        Fin.ext (by show (512 * ((n + 1) / 8 % 8) + q.val) % 4096 = (512 * (n / 8 % 8) + q.val) % 4096; rw [eo])
      rw [e8, er, ec]
      rfl

end Cert.KernelIdeal.Sweep
end
-- ==== Proof.HostArrays.lean ====
/-
  The arrays the fused kernel's region reads, in terms of the program's arguments.  Two are prepared by the host
  before the region: the activations flattened from (4, 2048, 4096) to (8192, 4096) — row 2048·b + r is row (b, r) —
  and the adapter delta  Δ(o, k) = c · ∑ᵨ B(o, ρ) · A(ρ, k),  the scaling constant times the product of the two
  low-rank factors.  The integer weight and the scale are passed through untouched.
-/
import proofs.«126805_j48576080118365_1_alg».proof.Proof.Sweep
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable {F : FTy → Type} [FloatOps F]
variable (m : (ℓ : Loc nD τ sig) → Buf (Elt F) ℓ)

/-! ## The two arrays the host prepares before the region -/

/-- The float arguments at their literal types: activations and the two adapter factors. -/
abbrev xarg (c : Dev nD) : Vec F S4x2048x4096 .f32 := m ((c : Thread nD τ).loc main_arg0)
abbrev Aarg (c : Dev nD) : Vec F S16x4096 .f32 := m ((c : Thread nD τ).loc main_arg3)
abbrev Barg (c : Dev nD) : Vec F S4096x16 .f32 := m ((c : Thread nD τ).loc main_arg4)

/-- The activations as the region finds them: the argument flattened to 8192 rows (a reshape moves no entry in
    row-major order). -/
theorem Xarr_eq (c : Dev nD) :
    Xarr m c = shapeCast S8192x4096 (m ((c : Thread nD τ).loc main_arg0)) shapeCasts_S4x2048x4096_S8192x4096 := by
  show StableHlo.after hostOps0 (fun b => m (c, b)) (Proc.devRef .tc main_call0_v0) = _
  after_results
  rfl

/-- The adapter delta as the region finds it: the scaling constant times the product of the two low-rank factors. -/
theorem Darr_eq (c : Dev nD) :
    Darr m c = mulf (broadcastInDim S4096x4096 ![] bcast_S_S4096x4096 (constant (F := F) S_ .f32 0x40000000#32))
      (Host.dotGeneral dot_S4096x16_S16x4096_S4096x4096_1_0_0_1_n_n none (m ((c : Thread nD τ).loc main_arg4)) (m ((c : Thread nD τ).loc main_arg3))) := by
  show StableHlo.after hostOps0 (fun b => m (c, b)) (Proc.devRef .tc main_call0_v3) = _
  after_results
  rfl

/-- The weight and the scale are the arguments themselves. -/
theorem Warr_eq (c : Dev nD) : Warr m c = m ((c : Thread nD τ).loc main_arg1) := V_main_arg1 m c
theorem Sarr_eq (c : Dev nD) : Sarr m c = m ((c : Thread nD τ).loc main_arg2) := V_main_arg2 m c

variable (mI : (ℓ : Loc nD τ sig) → Buf (Elt Ideal) ℓ)

/-! ### Read at an entry, over the extended reals -/

/-- Row `2048·b + r` of the flattened activations is row `(b, r)` of the argument. -/
theorem Xarr_apply (c : Dev nD) (b : Fin 4) (r : Fin 2048) (k : Fin 4096) (row : Fin 8192)
    (hrow : row.val = 2048 * b.val + r.val) :
    Xarr mI c (ix2 row k) = xarg mI c (ix3 b r k) := by
  rw [Xarr_eq]
  refine shapeCast_apply _ _ (ix2 row k) (ix3 b r k) ?_
  rw [Shape.rowMajor_val_three, Shape.rowMajor_val_two]
  show (b.val * 2048 + r.val) * 4096 + k.val = row.val * 4096 + k.val
  rw [hrow]
  ring

/-- The low-rank product's operand indices, axis by axis: the left factor is read at (output row, rank index), the
    right factor at (rank index, output column). -/
theorem lr_lhs_axis0 (i : S4096x4096.Idx) (q : dot_S4096x16_S16x4096_S4096x4096_1_0_0_1_n_n.contr.Idx) :
    (dot_S4096x16_S16x4096_S4096x4096_1_0_0_1_n_n.lhsIdx i q 0).val = (i 0).val := by
  unfold DotDims.lhsIdx
  rw [dif_neg (show ¬(0 : Fin S4096x16.rank) ∈ dot_S4096x16_S16x4096_S4096x4096_1_0_0_1_n_n.lhsBatch by decide), dif_pos (show (0 : Fin S4096x16.rank) ∈ dot_S4096x16_S16x4096_S4096x4096_1_0_0_1_n_n.lhsNonContracting by decide)]
  rfl
theorem lr_lhs_axis1 (i : S4096x4096.Idx) (q : dot_S4096x16_S16x4096_S4096x4096_1_0_0_1_n_n.contr.Idx) :
    (dot_S4096x16_S16x4096_S4096x4096_1_0_0_1_n_n.lhsIdx i q 1).val = (q ⟨0, by decide⟩).val :=
  dot_S4096x16_S16x4096_S4096x4096_1_0_0_1_n_n.lhsIdx_val_of_single rfl i q
theorem lr_rhs_axis0 (i : S4096x4096.Idx) (q : dot_S4096x16_S16x4096_S4096x4096_1_0_0_1_n_n.contr.Idx) :
    (dot_S4096x16_S16x4096_S4096x4096_1_0_0_1_n_n.rhsIdx i q 0).val = (q ⟨0, by decide⟩).val :=
  dot_S4096x16_S16x4096_S4096x4096_1_0_0_1_n_n.rhsIdx_val_of_single rfl i q
theorem lr_rhs_axis1 (i : S4096x4096.Idx) (q : dot_S4096x16_S16x4096_S4096x4096_1_0_0_1_n_n.contr.Idx) :
    (dot_S4096x16_S16x4096_S4096x4096_1_0_0_1_n_n.rhsIdx i q 1).val = (i 1).val := by
  unfold DotDims.rhsIdx
  rw [dif_neg (show ¬(1 : Fin S16x4096.rank) ∈ dot_S4096x16_S16x4096_S4096x4096_1_0_0_1_n_n.rhsBatch by decide), dif_pos (show (1 : Fin S16x4096.rank) ∈ dot_S4096x16_S16x4096_S4096x4096_1_0_0_1_n_n.rhsNonContracting by decide)]
  rfl

/-- The low-rank product at an entry: a sum over the sixteen rank indices. -/
theorem lowrank_apply (B : FVec Ideal S4096x16 .f32) (A : FVec Ideal S16x4096 .f32) (o k : Fin 4096) :
    Host.dotGeneral (F := Ideal) dot_S4096x16_S16x4096_S4096x4096_1_0_0_1_n_n none B A (ix2 o k) = ∑ ρ : Fin 16, B (ix2 o ρ) * A (ix2 ρ k) := by
  simp only [Host.dotGeneral]
  rw [Ideal.dotGeneral_apply, ← Equiv.sum_comp (contrEquiv1 dot_S4096x16_S16x4096_S4096x4096_1_0_0_1_n_n 16 rfl rfl).symm]
  refine Finset.sum_congr rfl fun ρ _ => ?_
  have hk := contrEquiv1_symm_val dot_S4096x16_S16x4096_S4096x4096_1_0_0_1_n_n 16 rfl rfl ρ
  have el : dot_S4096x16_S16x4096_S4096x4096_1_0_0_1_n_n.lhsIdx (ix2 o k) ((contrEquiv1 dot_S4096x16_S16x4096_S4096x4096_1_0_0_1_n_n 16 rfl rfl).symm ρ) = ix2 o ρ := funext fun a => Fin.ext (by
    match a with
    | ⟨0, _⟩ => exact lr_lhs_axis0 _ _
    | ⟨1, _⟩ => exact (lr_lhs_axis1 _ _).trans hk)
  have er : dot_S4096x16_S16x4096_S4096x4096_1_0_0_1_n_n.rhsIdx (ix2 o k) ((contrEquiv1 dot_S4096x16_S16x4096_S4096x4096_1_0_0_1_n_n 16 rfl rfl).symm ρ) = ix2 ρ k := funext fun a => Fin.ext (by
    match a with
    | ⟨0, _⟩ => exact (lr_rhs_axis0 _ _).trans hk
    | ⟨1, _⟩ => exact lr_rhs_axis1 _ _)
  rw [el, er]

/-- The adapter delta at an entry: the scaling constant times the low-rank product there. -/
theorem Darr_apply (c : Dev nD) (o k : Fin 4096) :
    Darr mI c (ix2 o k) = Ideal.ofBits .f32 0x40000000#32
      * ∑ ρ : Fin 16, Barg mI c (ix2 o ρ) * Aarg mI c (ix2 ρ k) := by
  rw [Darr_eq, mulf_apply]
  rw [show Host.dotGeneral (F := Ideal) dot_S4096x16_S16x4096_S4096x4096_1_0_0_1_n_n none (mI ((c : Thread nD τ).loc main_arg4)) (mI ((c : Thread nD τ).loc main_arg3)) (ix2 o k) = _ from lowrank_apply (Barg mI c) (Aarg mI c) o k]
  refine congrArg (· * _) ?_
  exact (broadcastInDim_apply _ bcast_S_S4096x4096 (constant (F := Ideal) S_ .f32 0x40000000#32) (ix2 o k) ix0 (fun a => a.elim0)).trans rfl

end Cert.KernelIdeal.Sweep
end
-- ==== Proof.Final.lean ====
/-
  From the accumulator to the program's result.  A point writes its output block back exactly when it is the last
  of a sweep, and then the block is the full eight-block accumulation; the 4 × 8 written blocks tile the
  (8192, 4096) output array, so the region leaves there, at (row, o), the ordered sum of all eight contraction
  blocks of that entry's terms.  The host reshapes the array to (4, 2048, 4096): entry (b, r, o) is row 2048·b + r.
  With the flattened activations and the adapter delta read back in terms of the arguments, this is the fused
  arrangement of the specification.
-/
import proofs.«126805_j48576080118365_1_alg».proof.Proof.HostArrays
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen

variable (mI : (ℓ : Loc nD τ sig) → Buf (Elt Ideal) ℓ) (ρ : Dev nD → PrngReg)

/-- The flattened result: at row `row` and output column `o`, all eight contraction blocks accumulated. -/
def Gflat (c : Dev nD) : Vec Ideal S8192x4096 .f32 :=
  fun i => QLora.acc (kterm (Xarr mI c) (Warr mI c) (Sarr mI c) (Darr mI c) (i 0) (i 1)) 7

/-- A point that writes back is the last of its sweep, and what it writes is its block of the flattened result:
    entry (p, q) of the tile sits at row 2048·(row tile) + p, column 512·(column tile) + q of the array. -/
theorem flushed_eq (c : Dev nD) (t : Fin cfg0.N) (hf : (cfg0.win 4).flush t = true) :
    (dats mI 0 c).flushed 4 t = ((cfg0.win 4).blk t).view.read (Elt Ideal) (Gflat mI c) := by
  have h7 : t.val % 8 = 7 := (flush0_4 t).mp hf
  obtain ⟨-, -, -, -, -, -, -, e0, e1⟩ := idx_facts t
  have hN : t.val < 256 := lt_of_lt_of_eq t.isLt (show cfg0.N = 256 from N_0)
  show (cfg0.win 4).cut (grid0.coords t) ((dats mI 0 c).after 4 t) = _
  rw [after0_4, out_last mI c t h7]
  funext y
  obtain ⟨p, q, rfl⟩ : ∃ (p : Fin 2048) (q : Fin 512), y = ix2 p q := ⟨y 0, y 1, eq_ix2 y⟩
  rw [View.read_apply]
  show (outsAt0 mI c t.val t.isLt).2 (ix2 p q) = Gflat mI c (((cfg0.win 4).blk t).view.emb (ix2 p q))
  rw [acc_eq mI c t.val t.isLt p q, h7]
  unfold Gflat
  have r0 : (((cfg0.win 4).blk t).view.emb (ix2 p q)) 0 = rowOf t.val p := Fin.ext (by
    show win0_4.index t (0 : Fin 2) * 2048 + 1 * p.val = (2048 * (t.val / 64) + p.val) % 8192; rw [e0]; omega)
  have r1 : (((cfg0.win 4).blk t).view.emb (ix2 p q)) 1 = outOf t.val q := Fin.ext (by
    show win0_4.index t (1 : Fin 2) * 512 + 1 * q.val = (512 * (t.val / 8 % 8) + q.val) % 4096; rw [e1]; omega)
  rw [r0, r1]

/-- Every entry of the array is in the block of the last point of its (row tile, column tile)'s sweep. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  have hlt : 64 * ((i 0).val / 2048) + 8 * ((i 1).val / 512) + 7 < cfg0.N := by rw [hN]; omega
  obtain ⟨t, ht⟩ : ∃ t : Fin cfg0.N, t.val = 64 * ((i 0).val / 2048) + 8 * ((i 1).val / 512) + 7 := ⟨⟨_, hlt⟩, rfl⟩
  obtain ⟨-, -, -, -, -, -, -, e0, e1⟩ := idx_facts t
  refine ⟨t, (flush0_4 t).mpr (by rw [ht]; omega), ?_⟩
  show i ∈ ((View.whole main_call0_v4).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 512 ≤ (i 1).val ∧ (i 1).val < win0_4.index t (1 : Fin 2) * 512 + 512
    rw [e1, ht]; omega

/-- So the region leaves the flattened result in its output array. -/
theorem final_arr (c : Dev nD) : (dats mI 0 c).arrAt 4 cfg0.N = Gflat mI c :=
  (dats mI 0 c).arrAt_eq_of_cover 4 (Gflat mI c) (flushed_eq mI c) covered

/-- The program's result is the output array reshaped back to (4, 2048, 4096). -/
theorem result_eq (c : Dev nD) :
    Pipeline.afterTail₀ cfgs (dats mI) 0 (V0 mI) [hostOps1] c main_v0
      = shapeCast S4x2048x4096 (Gflat mI c) shapeCasts_S8192x4096_S4x2048x4096 := by
  unfold Pipeline.afterTail₀
  show StableHlo.after hostOps1 _ (Proc.devRef .tc main_v0) = _
  after_results
  have e : Pipeline.withArrays (cfgs 0).spec c (V0 mI c) (fun w => (dats mI 0 c).arrAt w (cfgs 0).N)
      (Proc.devRef .tc main_call0_v4) = Gflat mI c :=
    (Pipeline.withArrays_arr spec0 launch0.win.arr_inj c _ _ 4).trans (final_arr mI c)
  rw [e]
  rfl

/-- At the flattened row of `(b, r)` the kernel's term is the specification's: the flattened activations read row
    `(b, r)`, and the adapter delta is the scaling constant times the low-rank product. -/
theorem kterm_eq (c : Dev nD) (b : Fin 4) (r : Fin 2048) (o : Fin 4096) (row : Fin 8192)
    (hrow : row.val = 2048 * b.val + r.val) :
    kterm (Xarr mI c) (Warr mI c) (Sarr mI c) (Darr mI c) row o
      = QLora.term (xarg mI c) (mI ((c : Thread nD τ).loc main_arg1)) (mI ((c : Thread nD τ).loc main_arg2))
          (Aarg mI c) (Barg mI c) (Ideal.ofBits .f32 0x40000000#32) b r o := by
  funext k
  unfold kterm QLora.term
  rw [Xarr_apply mI c b r k row hrow, Darr_apply, Warr_eq, Sarr_eq]

/-- The program's result is the fused arrangement of its arguments. -/
theorem result_fused (c : Dev nD) :
    shapeCast S4x2048x4096 (Gflat mI c) shapeCasts_S8192x4096_S4x2048x4096
      = QLora.fused (xarg mI c) (mI ((c : Thread nD τ).loc main_arg1)) (mI ((c : Thread nD τ).loc main_arg2))
          (Aarg mI c) (Barg mI c) (Ideal.ofBits .f32 0x40000000#32) := by
  funext i
  obtain ⟨b, r, o, rfl⟩ : ∃ (b : Fin 4) (r : Fin 2048) (o : Fin 4096), i = ix3 b r o := ⟨i 0, i 1, i 2, eq_ix3 i⟩
  have hlt : 2048 * b.val + r.val < 8192 := by have := b.isLt; have := r.isLt; omega
  rw [shapeCast_apply (Gflat mI c) shapeCasts_S8192x4096_S4x2048x4096 (ix3 b r o) (ix2 ⟨2048 * b.val + r.val, hlt⟩ o) (by
    rw [Shape.rowMajor_val_two, Shape.rowMajor_val_three]
    show (2048 * b.val + r.val) * 4096 + o.val = (b.val * 2048 + r.val) * 4096 + o.val
    ring)]
  unfold Gflat QLora.fused
  show QLora.acc (kterm (Xarr mI c) (Warr mI c) (Sarr mI c) (Darr mI c) ⟨2048 * b.val + r.val, hlt⟩ o) 7 = QLora.acc (QLora.term _ _ _ _ _ _ b r o) 7
  rw [kterm_eq mI c b r o ⟨2048 * b.val + r.val, hlt⟩ rfl]

/-- The run of the fused program, read: every weakly fair execution terminates with the result at the fused
    arrangement of the arguments and the arguments unchanged. -/
theorem run : θ_run defs (onTc (τ := τ) (main (F := Ideal))) ⟨mI, fun _ => 0, ρ⟩ fun r => ∀ c : Dev nD,
      r.2.mem ((c.tc : Thread nD τ).loc main_v0)
        = QLora.fused (xarg mI c) (mI ((c : Thread nD τ).loc main_arg1)) (mI ((c : Thread nD τ).loc main_arg2))
            (Aarg mI c) (Barg mI c) (Ideal.ofBits .f32 0x40000000#32)
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4) :=
  (θ_run defs _ _).mono (fun _ h c =>
    ⟨(((h c).2 main_v0 (Pipeline.mem_restRefs_of main_v0 (by decide) (by decide))).trans (result_eq mI c)).trans (result_fused mI c),
      ((h c).2 main_arg0 (Pipeline.mem_restRefs_of main_arg0 (by decide) (by decide))).trans (W_main_arg0 mI (dats mI) c),
      ((h c).1 1).trans (((dats mI 0 c).arrAt_in 1 rfl _).trans ((A_eq mI c 1).trans (V_main_arg1 mI c))),
      ((h c).1 2).trans (((dats mI 0 c).arrAt_in 2 rfl _).trans ((A_eq mI c 2).trans (V_main_arg2 mI c))),
      ((h c).2 main_arg3 (Pipeline.mem_restRefs_of main_arg3 (by decide) (by decide))).trans (W_main_arg3 mI (dats mI) c),
      ((h c).2 main_arg4 (Pipeline.mem_restRefs_of main_arg4 (by decide) (by decide))).trans (W_main_arg4 mI (dats mI) c)⟩)
    (run_main mI ρ)

end Cert.KernelIdeal.Sweep
end
-- ==== Proof.RefValue.lean ====
/-
  The reference program's result, read at an index, is the split arrangement of the quantized low-rank-adapted
  linear map:

    ref (b, r, o) = ∑ₖ x(b,r,k) · (ŵ(o,k) · s)  +  (∑ᵨ (∑ₖ x(b,r,k) · A(ρ,k)) · B(o,ρ)) · 2.

  Each operation of the reference is read at an index from its operands at an index; what remains is to identify
  the index functions of the contractions and broadcasts with the coordinate forms, after which the two sides are
  the same term over the extended reals.
-/
import proofs.«126805_j48576080118365_1_alg».proof.Proof.Gen.ReferenceIdeal.Read
import proofs.«126805_j48576080118365_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The index functions in coordinates -/

/-- The base contraction reads the activations at `(b, r, k)`. -/
theorem lidx4 (i : S4x2048x4096.Idx) (k : Fin 4096) :
    lidx_main_v4 i k = ix3 (n0 := 4) (n1 := 2048) (n2 := 4096) (i 0) (i 1) k :=
  funext fun a => Fin.ext (by match a with | ⟨0, _⟩ => rfl | ⟨1, _⟩ => rfl | ⟨2, _⟩ => rfl)

/-- The base contraction reads the dequantized weight at `(o, k)`. -/
theorem ridx4 (i : S4x2048x4096.Idx) (k : Fin 4096) :
    ridx_main_v4 i k = ix2 (n0 := 4096) (n1 := 4096) (i 2) k :=
  funext fun a => Fin.ext (by match a with | ⟨0, _⟩ => rfl | ⟨1, _⟩ => rfl)

/-- The scale, broadcast twice, is read at its one index wherever the weight is read. -/
theorem idx12 (j : S4096x4096.Idx) : idx_main_v1 (idx_main_v2 j) = ix1 (n := 1) 0 :=
  funext fun a => Fin.ext (by match a with | ⟨0, _⟩ => rfl)

/-- The inner adapter contraction, under the outer one, reads the activations at `(b, r, k)`. -/
theorem lidx56 (i : S4x2048x4096.Idx) (ρ : Fin 16) (k : Fin 4096) :
    lidx_main_v5 (lidx_main_v6 i ρ) k = ix3 (n0 := 4) (n1 := 2048) (n2 := 4096) (i 0) (i 1) k :=
  funext fun a => Fin.ext (by match a with | ⟨0, _⟩ => rfl | ⟨1, _⟩ => rfl | ⟨2, _⟩ => rfl)

/-- The inner adapter contraction, under the outer one, reads the first factor at `(ρ, k)`. -/
theorem ridx56 (i : S4x2048x4096.Idx) (ρ : Fin 16) (k : Fin 4096) :
    ridx_main_v5 (lidx_main_v6 i ρ) k = ix2 (n0 := 16) (n1 := 4096) ρ k :=
  funext fun a => Fin.ext (by match a with | ⟨0, _⟩ => rfl | ⟨1, _⟩ => rfl)

/-- The outer adapter contraction reads the second factor at `(o, ρ)`. -/
theorem ridx6 (i : S4x2048x4096.Idx) (ρ : Fin 16) :
    ridx_main_v6 i ρ = ix2 (n0 := 4096) (n1 := 16) (i 2) ρ :=
  funext fun a => Fin.ext (by match a with | ⟨0, _⟩ => rfl | ⟨1, _⟩ => rfl)

/-! ## The reference is the split arrangement -/

theorem ref_eq_split (x0 : (⟨Cert.ReferenceIdeal.S4x2048x4096, .f32⟩ : BufTy).Contents (Elt Ideal)) (x1 : (⟨Cert.ReferenceIdeal.S4096x4096, .i32⟩ : BufTy).Contents (Elt Ideal)) (x2 : (⟨Cert.ReferenceIdeal.S1, .f32⟩ : BufTy).Contents (Elt Ideal)) (x3 : (⟨Cert.ReferenceIdeal.S16x4096, .f32⟩ : BufTy).Contents (Elt Ideal)) (x4 : (⟨Cert.ReferenceIdeal.S4096x16, .f32⟩ : BufTy).Contents (Elt Ideal)) :
    Cert.ReferenceIdeal.Read.val_main_v9 (F := Ideal) x0 x1 x2 x3 x4 = Cert.QLora.split x0 x1 x2 x3 x4 (Ideal.ofBits .f32 0x40000000#32) := by
  funext i
  -- the sum of the base product and the scaled adapter product, each contraction as its sum over the contracted axis
  rw [val_main_v9_apply, val_main_v4_apply, val_main_v8_apply, val_main_v6_apply, val_main_v7_apply, val_main_cst_apply]
  -- under the sums: the dequantized weight `ŵ · s`, the inner contraction, and every read in coordinates
  simp only [val_main_v3_apply, val_main_v0_apply, val_main_v2_apply, val_main_v1_apply, val_main_v5_apply,
    lidx4, ridx4, idx12, lidx56, ridx56, ridx6]
  -- over the extended reals the operations are `+`, `·` and the integer read as a real: the same term
  rfl

end Cert.ReferenceIdeal.RefValue

end
-- ==== Proof.Algebra.lean ====
/-
  The algebra behind the two arrangements of the quantized low-rank-adapted linear map.

  * `acc_seven`: adding the eight 512-wide partial sums onto `0`, block after block, gives the sum over the whole
    contraction axis.  Nothing about finiteness of the terms is needed: the extended reals are an additive
    commutative monoid, and the pairs (block, position in the block) re-index the axis by `(kb, j) ↦ 512·kb + j`.
  * `fused_eq_split`: when every entry is a real number, both arrangements are coercions of real expressions, and
    over the reals the identity is distributivity followed by an exchange of two finite sums:
      ∑ₖ x·(ŵ·s + c·∑ᵨ B·A) = ∑ₖ x·(ŵ·s) + (∑ᵨ (∑ₖ x·A)·B)·c .
-/
import proofs.«126805_j48576080118365_1_alg».proof.Proof.Spec

noncomputable section

namespace Cert.QLora

open Idealize.ShloMosaic Idealize.ShloMosaic.ValueIdx

/-- The eight partial sums written out: `acc f 7` is the double sum over blocks and positions inside a block. -/
theorem acc_blocks (f : Fin 4096 → EReal) : acc f 7 = ∑ kb : Fin 8, ∑ j : Fin 512, f (col kb.val j) := by
  simp only [acc, Fin.sum_univ_eight, zero_add]
  rfl

/-- All eight blocks accumulated are the sum over the whole contraction axis: the pair `(kb, j)` with `kb < 8`,
    `j < 512` names column `512·kb + j < 4096` exactly once, and the reduction modulo 4096 in `col` does nothing. -/
theorem acc_seven (f : Fin 4096 → EReal) : acc f 7 = ∑ k : Fin 4096, f k := by
  rw [acc_blocks, ← Fintype.sum_prod_type']
  refine Fintype.sum_equiv (finProdFinEquiv.trans (finCongr (by norm_num : 8 * 512 = 4096))) _ _ ?_
  rintro ⟨kb, j⟩
  congr 1
  apply Fin.ext
  have h1 := kb.isLt
  have h2 := j.isLt
  simp only [col, Equiv.trans_apply, finCongr_apply, Fin.val_cast, finProdFinEquiv_apply_val]
  omega

/-- The coercion of the reals into the extended reals commutes with finite sums (it is additive and sends `0` to
    `0`), by induction on the index set. -/
theorem coe_sum {ι : Type*} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The identity over the reals.  Distribute `x k` over the effective weight, split the sum, and in the adapter part
    pull every factor inside the inner sum; the two sides are then the same double sum with the order of summation
    exchanged, term by term equal by commutativity. -/
theorem real_fused_eq_split {n m : ℕ} (x W : Fin n → ℝ) (A : Fin m → Fin n → ℝ) (B : Fin m → ℝ) (s c : ℝ) :
    ∑ k, x k * (W k * s + c * ∑ ρ, B ρ * A ρ k)
      = ∑ k, x k * (W k * s) + (∑ ρ, (∑ k, x k * A ρ k) * B ρ) * c := by
  simp only [mul_add, Finset.sum_add_distrib, Finset.mul_sum, Finset.sum_mul]
  congr 1
  rw [Finset.sum_comm]
  exact Finset.sum_congr rfl fun ρ _ => Finset.sum_congr rfl fun k _ => by ring

/-- With real entries the fused arrangement equals the split one. -/
theorem fused_eq_split (x : SX.Idx → EReal) (w : SW.Idx → BitVec 32) (s : SS.Idx → EReal) (A : SA.Idx → EReal)
    (B : SB.Idx → EReal) (c : EReal)
    (hx : ∀ i, ∃ r : ℝ, x i = (r : EReal)) (hs : ∀ i, ∃ r : ℝ, s i = (r : EReal))
    (hA : ∀ i, ∃ r : ℝ, A i = (r : EReal)) (hB : ∀ i, ∃ r : ℝ, B i = (r : EReal)) (hc : ∃ r : ℝ, c = (r : EReal)) :
    fused x w s A B c = split x w s A B c := by
  choose x' hx' using hx
  choose s' hs' using hs
  choose A' hA' using hA
  choose B' hB' using hB
  obtain ⟨c', rfl⟩ := hc
  obtain rfl : x = fun i => (x' i : EReal) := funext hx'
  obtain rfl : s = fun i => (s' i : EReal) := funext hs'
  obtain rfl : A = fun i => (A' i : EReal) := funext hA'
  obtain rfl : B = fun i => (B' i : EReal) := funext hB'
  funext i
  simp only [fused, split, term, acc_seven]
  simp only [← EReal.coe_mul, ← EReal.coe_add, ← coe_sum]
  exact congrArg (fun r : ℝ => (r : EReal))
    (real_fused_eq_split (fun k => x' (ix3 (i 0) (i 1) k)) (fun k => ((w (ix2 (i 2) k)).toInt : ℝ))
      (fun ρ k => A' (ix2 ρ k)) (fun ρ => B' (ix2 (i 2) ρ)) (s' (ix1 0)) c')

end Cert.QLora

end
-- ==== Proof.Finite.lean ====
/-
  The precondition read back: every entry of the four floating-point argument arrays is a real number.

  The precondition says that, for each such array, the conjunction over all entries of `|x| < +∞` is true.  An
  entry `x` of the extended reals with `max x (-x) < ⊤` is neither `⊤` nor `⊥`, hence the coercion of a real.
  The adapter's scaling constant (the word `0x40000000`) is the real number 2.
-/
import proofs.«126805_j48576080118365_1_alg».proof.Defs
import proofs.«126805_j48576080118365_1_alg».proof.Proof.Gen.Pre_finite_inputs
import Idealize.ShloMosaic.Lib.ReduceAll
import Idealize.ShloMosaic.Lib.ValueIdx

noncomputable section

namespace Cert.QLora.Finite

open Idealize.ShloMosaic Idealize.SL.Sem

/-- The scalar shape has exactly one index. -/
instance : Subsingleton Cert.Pre_finite_inputs.S_.Idx := ⟨fun a b => funext fun d => d.elim0⟩

/-- The word `0x40000000` denotes `2`: exponent field 128, zero fraction, so `2^23 · 2^(128 - 127 - 23)`. -/
theorem two_real : ∃ r : ℝ, Ideal.ofBits .f32 0x40000000#32 = (r : EReal) :=
  ⟨2, by simp [Ideal.ofBits, Ideal.ieee, -EReal.coe_mul]; norm_num⟩

/-- The word `0x7F800000` (all-ones exponent, zero fraction, sign clear) denotes `+∞`. -/
theorem inf_eq_top : Ideal.ofBits .f32 0x7F800000#32 = (⊤ : EReal) := by
  simp [Ideal.ofBits, Ideal.ieee]

/-- An extended real whose absolute value compares strictly below `+∞` is a real. -/
theorem real_of_abs_lt (x : EReal)
    (hx : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  -- the comparison word is 1 only if the strict inequality holds
  have hlt : max x (-x) < (⊤ : EReal) := by
    rw [← inf_eq_top]
    by_contra hn
    have h0 : FloatOps.cmpf (F := Ideal) (φ := .f32) .olt (FloatOps.hostAbsf (F := Ideal) (φ := .f32) x)
        (FloatOps.ofBits (F := Ideal) .f32 0x7F800000#32) = 0#1 := by
      show BitVec.ofBool (decide (max x (-x) < Ideal.ofBits .f32 0x7F800000#32)) = 0#1
      rw [decide_eq_false hn]; rfl
    rw [h0] at hx
    exact absurd hx (by decide)
  -- `⊥` has absolute value `⊤`, as has `⊤`; only a real is left
  induction x using EReal.rec with
  | bot => exact absurd hlt (by simp)
  | coe r => exact ⟨r, rfl⟩
  | top => exact absurd hlt (by simp)

/-- Under the precondition every entry of the activations, the scale and the two adapter factors is a real. -/
theorem real_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) := by
  have h0 := congrFun (h c) ValueIdx.ix0
  dsimp only [Cert.Pre_finite_inputs.fn, Cert.Pre_finite_inputs.fn_part1] at h0
  -- the conjunction of the four "all entries finite" words is 1, so each of them is
  obtain ⟨h123, h4⟩ := IntOp.andi_eq_one.1 h0
  obtain ⟨h12, h3⟩ := IntOp.andi_eq_one.1 h123
  obtain ⟨h1, h2⟩ := IntOp.andi_eq_one.1 h12
  -- and a conjunction over all entries that is 1 is 1 at each entry
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i)⟩

end Cert.QLora.Finite

end
-- ==== Proof.lean ====
/-
  The certificate of a quantized linear layer with a low-rank adapter, computed two ways.

  The reference dequantizes the integer weight, multiplies, and adds the adapter's contribution computed through
  the rank-16 bottleneck and scaled:            x Ŵᵀ s  +  ((x Aᵀ) Bᵀ) · c .
  The kernel first folds the adapter into the weight, Δ = c · (B A), and then runs ONE tiled product against the
  effective weight Ŵ s + Δ, accumulating the eight 512-wide blocks of the contraction axis in a carried tile.

  Over the extended reals, with every float input a real number (the precondition), the two agree entry by entry:
  the kernel's result is the ordered sum of the eight block sums (module Final, from the accumulator's closed form
  in module Sweep), which is the plain sum over the contraction axis; distributing the activation over the effective
  weight and exchanging the two finite sums gives the reference's form (module Algebra). Distributivity is where
  finiteness is used (module Finite reads it off the precondition). The reference's own run is read index by index
  in module RefValue. The frames are the generated ones; the idealization rewrote nothing.
-/
import proofs.«126805_j48576080118365_1_alg».proof.Defs
import proofs.«126805_j48576080118365_1_alg».proof.Proof.Gen.Kernel
import proofs.«126805_j48576080118365_1_alg».proof.Proof.Gen.Kernel.Frame
import proofs.«126805_j48576080118365_1_alg».proof.Proof.Gen.KernelIdeal
import proofs.«126805_j48576080118365_1_alg».proof.Proof.Gen.KernelIdeal.Frame
import proofs.«126805_j48576080118365_1_alg».proof.Proof.Gen.ReferenceIdeal
import proofs.«126805_j48576080118365_1_alg».proof.Proof.Gen.ReferenceIdeal.Run
import proofs.«126805_j48576080118365_1_alg».proof.Proof.Gen.ReferenceIdeal.Read
import proofs.«126805_j48576080118365_1_alg».proof.Proof.Gen.Pre_finite_inputs
import proofs.«126805_j48576080118365_1_alg».proof.Proof.Final
import proofs.«126805_j48576080118365_1_alg».proof.Proof.RefValue
import proofs.«126805_j48576080118365_1_alg».proof.Proof.Algebra
import proofs.«126805_j48576080118365_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel ends at the fused arrangement and the reference at the
    split one; with finite inputs these are the same function. -/
theorem algebraic : Cert.algebraic_KernelIdeal_ReferenceIdeal := by
  intro m ρ m' ρ' hpre hagree
  refine ⟨_, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4, Cert.ReferenceIdeal.Read.val_main_v9_eq, Cert.ReferenceIdeal.RefValue.ref_eq_split]
  obtain ⟨rx, rs, rA, rB⟩ := Cert.QLora.Finite.real_of_pre m hpre c
  exact (Cert.QLora.fused_eq_split _ _ _ _ _ _ rx rs rA rB Cert.QLora.Finite.two_real).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
